-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S_ : Shape := ⟨0, ![]⟩

class Facts : Prop where
  bcast_S_S2048x1024x1x1 : S_.BroadcastsInDim S2048x1024x1x1 (![] : Fin 0 → Fin S2048x1024x1x1.rank)
  reducesTo_S2048x1024x1x1_S_d0_1_2_3 : S2048x1024x1x1.ReducesTo [0, 1, 2, 3] S_
  h_S_ : 0 < S_.numel
  bcast_S_S2048x32x1024x1x1 : S_.BroadcastsInDim S2048x32x1024x1x1 (![] : Fin 0 → Fin S2048x32x1024x1x1.rank)
  reducesTo_S2048x32x1024x1x1_S_d0_1_2_3_4 : S2048x32x1024x1x1.ReducesTo [0, 1, 2, 3, 4] S_
  bcast_S_S2048x4 : S_.BroadcastsInDim S2048x4 (![] : Fin 0 → Fin S2048x4.rank)
  reducesTo_S2048x4_S_d0_1 : S2048x4.ReducesTo [0, 1] S_
  bcast_S_S2048x32x4 : S_.BroadcastsInDim S2048x32x4 (![] : Fin 0 → Fin S2048x32x4.rank)
  reducesTo_S2048x32x4_S_d0_1_2 : S2048x32x4.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024x2048 .f32) (main_arg6 : FVec F S1024 .f32) (main_v13 : IVec S_ 1) (main_v16 : IVec S2048x32x4 1) : IVec S_ 1 :=
  let main_c_5 : IVec S_ 1 := constantI S_ 1 1#1
  let main_v17 : IVec S_ 1 := (fun x v => Host.reduce IntOp.andi x v reducesTo_S2048x32x4_S_d0_1_2 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2048x1024x1x1 .f32) (main_arg1 : FVec F S2048x32x1024x1x1 .f32) (main_arg2 : FVec F S2048x4 .f32) (main_arg3 : FVec F S2048x32x4 .f32) (main_arg4 : IVec S2048x32 1) (main_arg5 : FVec F S1024x2048 .f32) (main_arg6 : FVec F S1024 .f32) : IVec S_ 1 :=
  let main_v0 : FVec F S2048x1024x1x1 .f32 := Host.absf main_arg0
  let main_cst : FVec F S_ .f32 := constant S_ .f32 0x7F800000#32
  let main_v1 : FVec F S2048x1024x1x1 .f32 := broadcastInDim S2048x1024x1x1 ![] bcast_S_S2048x1024x1x1 main_cst
  let main_v2 : IVec S2048x1024x1x1 1 := cmpf .olt main_v0 main_v1
  let main_c : IVec S_ 1 := constantI S_ 1 1#1
  let main_v3 : IVec S_ 1 := (fun x v => Host.reduce IntOp.andi x v reducesTo_S2048x1024x1x1_S_d0_1_2_3 h_S_) main_v2 main_c
  let main_v4 : FVec F S2048x32x1024x1x1 .f32 := Host.absf main_arg1
  let main_cst_0 : FVec F S_ .f32 := constant S_ .f32 0x7F800000#32
  let main_v5 : FVec F S2048x32x1024x1x1 .f32 := broadcastInDim S2048x32x1024x1x1 ![] bcast_S_S2048x32x1024x1x1 main_cst_0
  let main_v6 : IVec S2048x32x1024x1x1 1 := cmpf .olt main_v4 main_v5
  let main_c_1 : IVec S_ 1 := constantI S_ 1 1#1
  let main_v7 : IVec S_ 1 := (fun x v => Host.reduce IntOp.andi x v reducesTo_S2048x32x1024x1x1_S_d0_1_2_3_4 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_v14 : FVec F S2048x32x4 .f32 := Host.absf main_arg3
  let main_cst_4 : FVec F S_ .f32 := constant S_ .f32 0x7F800000#32
  let main_v15 : FVec F S2048x32x4 .f32 := broadcastInDim S2048x32x4 ![] bcast_S_S2048x32x4 main_cst_4
  let main_v16 : IVec S2048x32x4 1 := cmpf .olt main_v14 main_v15
  fn_part1 (F := F) main_arg5 main_arg6 main_v13 main_v16
-- ==== Kernel.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S2048x1024 : Shape := ⟨2, ![2048, 1024]⟩
abbrev S2048x32x1024 : Shape := ⟨3, ![2048, 32, 1024]⟩
abbrev S1024x1024 : Shape := ⟨2, ![1024, 1024]⟩
abbrev S1x1024 : Shape := ⟨2, ![1, 1024]⟩
abbrev S64x1024 : Shape := ⟨2, ![64, 1024]⟩
abbrev S64x32x1024 : Shape := ⟨3, ![64, 32, 1024]⟩
abbrev S64x1x1024 : Shape := ⟨3, ![64, 1, 1024]⟩

abbrev nBuf : Space → Nat
  | .hbm => 18
  | .vmem => 9
  | .smem => 0
  | _ => 0

abbrev bufTy : (tb : Table) → Fin (tcTables nBuf tb) → BufTy
  | .hbm, ⟨0, _⟩ => ⟨S2048x1024x1x1, .f32⟩
  | .hbm, ⟨1, _⟩ => ⟨S2048x32x1024x1x1, .f32⟩
  | .hbm, ⟨2, _⟩ => ⟨S2048x4, .f32⟩
  | .hbm, ⟨3, _⟩ => ⟨S2048x32x4, .f32⟩
  | .hbm, ⟨4, _⟩ => ⟨S2048x32, .i1⟩
  | .hbm, ⟨5, _⟩ => ⟨S1024x2048, .f32⟩
  | .hbm, ⟨6, _⟩ => ⟨S1024, .f32⟩
  | .hbm, ⟨7, _⟩ => ⟨S2048x1024, .f32⟩
  | .hbm, ⟨8, _⟩ => ⟨S2048x32x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S2048x1024, .f32⟩
  | .hbm, ⟨17, _⟩ => ⟨S2048x1024x1x1, .f32⟩
  | .local _ .vmem, ⟨0, _⟩ => ⟨S64x1024, .f32⟩
  | .local _ .vmem, ⟨1, _⟩ => ⟨S64x1024, .f32⟩
  | .local _ .vmem, ⟨2, _⟩ => ⟨S64x32x1024, .f32⟩
  | .local _ .vmem, ⟨3, _⟩ => ⟨S64x32x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S64x1024, .f32⟩
  | .local _ .vmem, ⟨8, _⟩ => ⟨S64x1024, .f32⟩
  | _, _ => ⟨S2048x1024x1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x1024x1x1_S2048x1024 : S2048x1024x1x1.ShapeCasts S2048x1024
  shapeCasts_S2048x32x1024x1x1_S2048x32x1024 : S2048x32x1024x1x1.ShapeCasts S2048x32x1024
  slices_S1024x2048_S1024x1024_0_0 : S1024x2048.Slices ![0, 0] S1024x1024
  slices_S1024x2048_S1024x1024_0_1024 : S1024x2048.Slices ![0, 1024] S1024x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x32x1024_S64x1x1024_0_0_0 : ∀ a, (![0, 0, 0] : Fin 3 → Nat) a + S64x1x1024.size a ≤ S64x32x1024.size a
  h_S64x1x1024 : 0 < S64x1x1024.numel
  shapeCasts_S64x1x1024_S64x1024 : S64x1x1024.ShapeCasts S64x1024
  inb_S64x32x1024_S64x1x1024_0_1_0 : ∀ a, (![0, 1, 0] : Fin 3 → Nat) a + S64x1x1024.size a ≤ S64x32x1024.size a
  inb_S64x32x1024_S64x1x1024_0_2_0 : ∀ a, (![0, 2, 0] : Fin 3 → Nat) a + S64x1x1024.size a ≤ S64x32x1024.size a
  inb_S64x32x1024_S64x1x1024_0_3_0 : ∀ a, (![0, 3, 0] : Fin 3 → Nat) a + S64x1x1024.size a ≤ S64x32x1024.size a
  inb_S64x32x1024_S64x1x1024_0_4_0 : ∀ a, (![0, 4, 0] : Fin 3 → Nat) a + S64x1x1024.size a ≤ S64x32x1024.size a
  inb_S64x32x1024_S64x1x1024_0_5_0 : ∀ a, (![0, 5, 0] : Fin 3 → Nat) a + S64x1x1024.size a ≤ S64x32x1024.size a
  inb_S64x32x1024_S64x1x1024_0_6_0 : ∀ a, (![0, 6, 0] : Fin 3 → Nat) a + S64x1x1024.size a ≤ S64x32x1024.size a
  inb_S64x32x1024_S64x1x1024_0_7_0 : ∀ a, (![0, 7, 0] : Fin 3 → Nat) a + S64x1x1024.size a ≤ S64x32x1024.size a
  inb_S64x32x1024_S64x1x1024_0_8_0 : ∀ a, (![0, 8, 0] : Fin 3 → Nat) a + S64x1x1024.size a ≤ S64x32x1024.size a
  inb_S64x32x1024_S64x1x1024_0_9_0 : ∀ a, (![0, 9, 0] : Fin 3 → Nat) a + S64x1x1024.size a ≤ S64x32x1024.size a
  inb_S64x32x1024_S64x1x1024_0_10_0 : ∀ a, (![0, 10, 0] : Fin 3 → Nat) a + S64x1x1024.size a ≤ S64x32x1024.size a
  inb_S64x32x1024_S64x1x1024_0_11_0 : ∀ a, (![0, 11, 0] : Fin 3 → Nat) a + S64x1x1024.size a ≤ S64x32x1024.size a
  inb_S64x32x1024_S64x1x1024_0_12_0 : ∀ a, (![0, 12, 0] : Fin 3 → Nat) a + S64x1x1024.size a ≤ S64x32x1024.size a
  inb_S64x32x1024_S64x1x1024_0_13_0 : ∀ a, (![0, 13, 0] : Fin 3 → Nat) a + S64x1x1024.size a ≤ S64x32x1024.size a
  inb_S64x32x1024_S64x1x1024_0_14_0 : ∀ a, (![0, 14, 0] : Fin 3 → Nat) a + S64x1x1024.size a ≤ S64x32x1024.size a
  inb_S64x32x1024_S64x1x1024_0_15_0 : ∀ a, (![0, 15, 0] : Fin 3 → Nat) a + S64x1x1024.size a ≤ S64x32x1024.size a
  inb_S64x32x1024_S64x1x1024_0_16_0 : ∀ a, (![0, 16, 0] : Fin 3 → Nat) a + S64x1x1024.size a ≤ S64x32x1024.size a
  inb_S64x32x1024_S64x1x1024_0_17_0 : ∀ a, (![0, 17, 0] : Fin 3 → Nat) a + S64x1x1024.size a ≤ S64x32x1024.size a
  inb_S64x32x1024_S64x1x1024_0_18_0 : ∀ a, (![0, 18, 0] : Fin 3 → Nat) a + S64x1x1024.size a ≤ S64x32x1024.size a
  inb_S64x32x1024_S64x1x1024_0_19_0 : ∀ a, (![0, 19, 0] : Fin 3 → Nat) a + S64x1x1024.size a ≤ S64x32x1024.size a
  inb_S64x32x1024_S64x1x1024_0_20_0 : ∀ a, (![0, 20, 0] : Fin 3 → Nat) a + S64x1x1024.size a ≤ S64x32x1024.size a
  inb_S64x32x1024_S64x1x1024_0_21_0 : ∀ a, (![0, 21, 0] : Fin 3 → Nat) a + S64x1x1024.size a ≤ S64x32x1024.size a
  inb_S64x32x1024_S64x1x1024_0_22_0 : ∀ a, (![0, 22, 0] : Fin 3 → Nat) a + S64x1x1024.size a ≤ S64x32x1024.size a
  inb_S64x32x1024_S64x1x1024_0_23_0 : ∀ a, (![0, 23, 0] : Fin 3 → Nat) a + S64x1x1024.size a ≤ S64x32x1024.size a
  inb_S64x32x1024_S64x1x1024_0_24_0 : ∀ a, (![0, 24, 0] : Fin 3 → Nat) a + S64x1x1024.size a ≤ S64x32x1024.size a
  inb_S64x32x1024_S64x1x1024_0_25_0 : ∀ a, (![0, 25, 0] : Fin 3 → Nat) a + S64x1x1024.size a ≤ S64x32x1024.size a
  inb_S64x32x1024_S64x1x1024_0_26_0 : ∀ a, (![0, 26, 0] : Fin 3 → Nat) a + S64x1x1024.size a ≤ S64x32x1024.size a
  inb_S64x32x1024_S64x1x1024_0_27_0 : ∀ a, (![0, 27, 0] : Fin 3 → Nat) a + S64x1x1024.size a ≤ S64x32x1024.size a
  inb_S64x32x1024_S64x1x1024_0_28_0 : ∀ a, (![0, 28, 0] : Fin 3 → Nat) a + S64x1x1024.size a ≤ S64x32x1024.size a
  inb_S64x32x1024_S64x1x1024_0_29_0 : ∀ a, (![0, 29, 0] : Fin 3 → Nat) a + S64x1x1024.size a ≤ S64x32x1024.size a
  inb_S64x32x1024_S64x1x1024_0_30_0 : ∀ a, (![0, 30, 0] : Fin 3 → Nat) a + S64x1x1024.size a ≤ S64x32x1024.size a
  inb_S64x32x1024_S64x1x1024_0_31_0 : ∀ a, (![0, 31, 0] : Fin 3 → Nat) a + S64x1x1024.size a ≤ S64x32x1024.size a
  bcast_S2048x1024_S2048x1024x1x1_0_1 : S2048x1024.BroadcastsInDim S2048x1024x1x1 (![0, 1] : Fin 2 → Fin S2048x1024x1x1.rank)
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S2048x1024.size a
  hwx0_0 : ∀ i : grid0.Coords, EltTy.bits .f32 = 32 ∨ (Rect.block (s := S2048x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x32x1024.size a ≤ S2048x32x1024.size a
  hwx0_1 : ∀ i : grid0.Coords, EltTy.bits .f32 = 32 ∨ (Rect.block (s := S2048x32x1024) S64x32x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S2048x1024.size a
  hwx0_5 : ∀ i : grid0.Coords, EltTy.bits .f32 = 32 ∨ (Rect.block (s := S2048x1024) S64x1024.size (cc0_transform_5 i) (hinb0_5 i)).WholeWords (EltTy.packing .f32)

variable [Facts₀]

def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_v0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x1024x1x1 : Shape := ⟨4, ![2048, 1024, 1, 1]⟩
abbrev S2048x32x1024x1x1 : Shape := ⟨5, ![2048, 32, 1024, 1, 1]⟩
abbrev S2048x4 : Shape := ⟨2, ![2048, 4]⟩
abbrev S2048x32x4 : Shape := ⟨3, ![2048, 32, 4]⟩
abbrev S2048x32 : Shape := ⟨2, ![2048, 32]⟩
abbrev S1024x2048 : Shape := ⟨2, ![1024, 2048]⟩
abbrev S1024 : Shape := ⟨1, ![1024]⟩
abbrev S2048x1024 : Shape := ⟨2, ![2048, 1024]⟩
abbrev S2048x32x1024 : Shape := ⟨3, ![2048, 32, 1024]⟩
abbrev S1024x1024 : Shape := ⟨2, ![1024, 1024]⟩
abbrev S2048x1x1024 : Shape := ⟨3, ![2048, 1, 1024]⟩
abbrev S1x1x1024 : Shape := ⟨3, ![1, 1, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024x1x1, .f32⟩
  | .hbm, ⟨1, _⟩ => ⟨S2048x32x1024x1x1, .f32⟩
  | .hbm, ⟨2, _⟩ => ⟨S2048x4, .f32⟩
  | .hbm, ⟨3, _⟩ => ⟨S2048x32x4, .f32⟩
  | .hbm, ⟨4, _⟩ => ⟨S2048x32, .i1⟩
  | .hbm, ⟨5, _⟩ => ⟨S1024x2048, .f32⟩
  | .hbm, ⟨6, _⟩ => ⟨S1024, .f32⟩
  | .hbm, ⟨7, _⟩ => ⟨S2048x1024, .f32⟩
  | .hbm, ⟨8, _⟩ => ⟨S2048x32x1024, .f32⟩
  | .hbm, ⟨9, _⟩ => ⟨S1024x1024, .f32⟩
  | .hbm, ⟨10, _⟩ => ⟨S1024x1024, .f32⟩
  | .hbm, ⟨11, _⟩ => ⟨S2048x1024, .f32⟩
  | .hbm, ⟨12, _⟩ => ⟨S2048x32x1024, .f32⟩
  | .hbm, ⟨13, _⟩ => ⟨S2048x1x1024, .f32⟩
  | .hbm, ⟨14, _⟩ => ⟨S2048x32x1024, .f32⟩
  | .hbm, ⟨15, _⟩ => ⟨S2048x32x1024, .f32⟩
  | .hbm, ⟨16, _⟩ => ⟨S1x1x1024, .f32⟩
  | .hbm, ⟨17, _⟩ => ⟨S2048x32x1024, .f32⟩
  | .hbm, ⟨18, _⟩ => ⟨S2048x32x1024, .f32⟩
  | .hbm, ⟨19, _⟩ => ⟨S_, .f32⟩
  | .hbm, ⟨20, _⟩ => ⟨S2048x1024, .f32⟩
  | .hbm, ⟨21, _⟩ => ⟨S2048x1024x1x1, .f32⟩
  | _, _ => ⟨S2048x1024x1x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  shapeCasts_S2048x1024x1x1_S2048x1024 : S2048x1024x1x1.ShapeCasts S2048x1024
  shapeCasts_S2048x32x1024x1x1_S2048x32x1024 : S2048x32x1024x1x1.ShapeCasts S2048x32x1024
  slices_S1024x2048_S1024x1024_0_0 : S1024x2048.Slices ![0, 0] S1024x1024
  slices_S1024x2048_S1024x1024_0_1024 : S1024x2048.Slices ![0, 1024] S1024x1024
  bcast_S2048x1024_S2048x1x1024_0_2 : S2048x1024.BroadcastsInDim S2048x1x1024 (![0, 2] : Fin 2 → Fin S2048x1x1024.rank)
  bcast_S2048x1x1024_S2048x32x1024_0_1_2 : S2048x1x1024.BroadcastsInDim S2048x32x1024 (![0, 1, 2] : Fin 3 → Fin S2048x32x1024.rank)
  bcast_S1024_S1x1x1024_2 : S1024.BroadcastsInDim S1x1x1024 (![2] : Fin 1 → Fin S1x1x1024.rank)
  bcast_S1x1x1024_S2048x32x1024_0_1_2 : S1x1x1024.BroadcastsInDim S2048x32x1024 (![0, 1, 2] : Fin 3 → Fin S2048x32x1024.rank)
  reducesTo_S2048x32x1024_S2048x1024_d1 : S2048x32x1024.ReducesTo [1] S2048x1024
  h_S_ : 0 < S_.numel
  bcast_S2048x1024_S2048x1024x1x1_0_1 : S2048x1024.BroadcastsInDim S2048x1024x1x1 (![0, 1] : Fin 2 → Fin S2048x1024x1x1.rank)
  dot_S2048x1024_S1024x1024_S2048x1024_1_1_0_0_n_n_wf : DotDims.WF S2048x1024 S1024x1024 S2048x1024 [1] [1] [0] [0] [] []
  dot_S2048x32x1024_S1024x1024_S2048x32x1024_2_1_01_0_n_n_wf : DotDims.WF S2048x32x1024 S1024x1024 S2048x32x1024 [2] [1] [0, 1] [0] [] []

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x32x1024_S1024x1024_S2048x32x1024_2_1_01_0_n_n : DotDims S2048x32x1024 S1024x1024 S2048x32x1024 where
  lhsContracting := [2]
  rhsContracting := [1]
  lhsNonContracting := [0, 1]
  rhsNonContracting := [0]
  lhsBatch := []
  rhsBatch := []
  wf := dot_S2048x32x1024_S1024x1024_S2048x32x1024_2_1_01_0_n_n_wf

class Facts : Prop extends Facts₀ where

variable [Facts]
-- ==== Proof.Spec.lean ====
/-
  What both programs compute, as ONE function of the argument arrays, entry by entry.

  For a person row `n`, an output feature `d` and an "other" slot `s`, write
      pk n d   = ∑ k, person n k · W d k                (the person half of the linear layer, W's columns 0 … 1023)
      ok n s d = ∑ k, other n s k · W d (1024 + k)      (the other half, W's columns 1024 … 2047)
  The result at (n, d) is the maximum over the 32 slots `s` of  pk n d + b d + ok n s d,  taken from -∞.
  The maximum of finitely many extended reals does not depend on the order they are taken in, so it is written as
  the fold of `max` over all of `Fin 32`.

  The two programs associate the three summands differently: one adds the bias to the person half first, the other
  adds the two halves first. Addition of extended reals is commutative and associative everywhere (also at ±∞), so
  the two readings agree term by term (`cell_assoc`); no finiteness is used.
-/
import Idealize.ShloMosaic.PureOps.Ideal.Laws
import Idealize.ShloMosaic.Lib.ValueIdx

noncomputable section

open scoped BigOperators

namespace Cert.Spec

open Idealize.ShloMosaic Idealize.ShloMosaic.ValueIdx

/-- The f32 pattern of -∞: what the running maximum starts from. -/
abbrev negInf : EReal := Ideal.ofBits .f32 0xFF800000#32

/-- The maximum of two extended reals, spelt as the float operation both programs print. -/
abbrev fmax : EReal → EReal → EReal := FloatOps.maximumf (F := Ideal) (φ := .f32)

/-- One entry of the result from the rows that enter it: `P` the person's features and `Wp` the matching weights,
    `bias` the bias entry, `O s` slot `s`'s features and `Wo` the matching weights. -/
def cell (P Wp : Fin 1024 → EReal) (bias : EReal) (O : Fin 32 → Fin 1024 → EReal) (Wo : Fin 1024 → EReal) : EReal :=
  (Finset.univ : Finset (Fin 32)).fold fmax negInf (fun s => (∑ k, P k * Wp k + bias) + ∑ k, O s k * Wo k)

/-- Adding the two halves first and the bias last gives the same entry. -/
theorem cell_assoc (P Wp : Fin 1024 → EReal) (bias : EReal) (O : Fin 32 → Fin 1024 → EReal) (Wo : Fin 1024 → EReal) :
    (Finset.univ : Finset (Fin 32)).fold fmax negInf (fun s => (∑ k, P k * Wp k + ∑ k, O s k * Wo k) + bias)
      = cell P Wp bias O Wo :=
  congrArg (fun f => (Finset.univ : Finset (Fin 32)).fold fmax negInf f) (funext fun _ => add_right_comm _ _ _)

/-- The entry at row `r`, column `d`, read off five arrays laid out as the kernel stages them: `X0` the person rows,
    `X1` the slots' rows, `X2` and `X3` the two weight halves already transposed (contraction index first), `X4` the
    bias as one row. Generic in the number of rows, so that it serves a block of rows and the whole array alike. -/
def rowsCell {R : ℕ} (X0 : (⟨2, ![R, 1024]⟩ : Shape).Idx → EReal) (X1 : (⟨3, ![R, 32, 1024]⟩ : Shape).Idx → EReal)
    (X2 X3 : (⟨2, ![1024, 1024]⟩ : Shape).Idx → EReal) (X4 : (⟨2, ![1, 1024]⟩ : Shape).Idx → EReal)
    (r : Fin R) (d : Fin 1024) : EReal :=
  cell (fun k => X0 (ix2 r k)) (fun k => X2 (ix2 k d)) (X4 (ix2 (0 : Fin 1) d)) (fun s k => X1 (ix3 r s k)) (fun k => X3 (ix2 k d))

/-- The entry at (n, d) from the arguments as the programs receive them. -/
def resultAt (pf : (⟨4, ![2048, 1024, 1, 1]⟩ : Shape).Idx → EReal) (ofe : (⟨5, ![2048, 32, 1024, 1, 1]⟩ : Shape).Idx → EReal)
    (W : (⟨2, ![1024, 2048]⟩ : Shape).Idx → EReal) (b : (⟨1, ![1024]⟩ : Shape).Idx → EReal) (n : Fin 2048) (d : Fin 1024) : EReal :=
  cell (fun k => pf (ix4 n k (0 : Fin 1) (0 : Fin 1))) (fun k => W (ix2 d (⟨k.val, by omega⟩ : Fin 2048))) (b (ix1 d))
    (fun s k => ofe (ix5 n s k (0 : Fin 1) (0 : Fin 1))) (fun k => W (ix2 d (⟨1024 + k.val, by omega⟩ : Fin 2048)))

/-- The whole [2048, 1024] result before its two trailing unit axes are added. -/
def result (pf : (⟨4, ![2048, 1024, 1, 1]⟩ : Shape).Idx → EReal) (ofe : (⟨5, ![2048, 32, 1024, 1, 1]⟩ : Shape).Idx → EReal)
    (W : (⟨2, ![1024, 2048]⟩ : Shape).Idx → EReal) (b : (⟨1, ![1024]⟩ : Shape).Idx → EReal) :
    (⟨2, ![2048, 1024]⟩ : Shape).Idx → EReal :=
  fun j => resultAt pf ofe W b ⟨(j 0).val, idx2_lt0 j⟩ ⟨(j 1).val, idx2_lt1 j⟩

theorem result_ix2 (pf : (⟨4, ![2048, 1024, 1, 1]⟩ : Shape).Idx → EReal) (ofe : (⟨5, ![2048, 32, 1024, 1, 1]⟩ : Shape).Idx → EReal)
    (W : (⟨2, ![1024, 2048]⟩ : Shape).Idx → EReal) (b : (⟨1, ![1024]⟩ : Shape).Idx → EReal) (n : Fin 2048) (d : Fin 1024) :
    result pf ofe W b (ix2 n d) = resultAt pf ofe W b n d := rfl

/-- The last step of both programs: two trailing unit axes. -/
def withUnitAxes (x : (⟨2, ![2048, 1024]⟩ : Shape).Idx → EReal) : (⟨4, ![2048, 1024, 1, 1]⟩ : Shape).Idx → EReal :=
  broadcastInDim (⟨4, ![2048, 1024, 1, 1]⟩ : Shape) ![0, 1] (by decide) x

/-- Equal rows give equal entries. -/
theorem cell_congr {P P' Wp Wp' : Fin 1024 → EReal} {bias bias' : EReal} {O O' : Fin 32 → Fin 1024 → EReal} {Wo Wo' : Fin 1024 → EReal}
    (hP : ∀ k, P k = P' k) (hWp : ∀ k, Wp k = Wp' k) (hb : bias = bias') (hO : ∀ s k, O s k = O' s k) (hWo : ∀ k, Wo k = Wo' k) :
    cell P Wp bias O Wo = cell P' Wp' bias' O' Wo' := by
  obtain rfl : P = P' := funext hP
  obtain rfl : Wp = Wp' := funext hWp
  obtain rfl : O = O' := funext fun s => funext (hO s)
  obtain rfl : Wo = Wo' := funext hWo
  rw [hb]

end Cert.Spec

end
-- ==== Proof.LibFoldChain.lean ====
/-
  A fold over all of `Fin n`, for a commutative and associative operation, is the left-nested chain that takes the
  terms in order: `op (… (op (op b (g 0)) (g 1)) …) (g (n - 1))`. A running maximum (or sum, or minimum) that a
  program accumulates one term at a time, in order, is therefore the order-free fold of the same terms.

  `run op b g n` is the chain over a sequence `g : ℕ → α`: it starts at `b` and takes `g 0, …, g (n - 1)` in turn.
  `run_eq_fold_univ`: it is the fold over `Fin n` of `fun m => g m.val`.
  `run_add`: a chain of `n + k` terms is the chain of the last `k` started from the chain of the first `n`.
-/
import Mathlib.Data.Finset.Fold
import Mathlib.Data.Fintype.Basic

namespace FoldChain

variable {α : Type*}

/-- The left-nested chain: from `b`, take `g 0`, `g 1`, …, `g (n - 1)` in turn. -/
def run (op : α → α → α) (b : α) (g : ℕ → α) : ℕ → α
  | 0 => b
  | n + 1 => op (run op b g n) (g n)

@[simp] theorem run_zero (op : α → α → α) (b : α) (g : ℕ → α) : run op b g 0 = b := rfl

theorem run_succ (op : α → α → α) (b : α) (g : ℕ → α) (n : ℕ) : run op b g (n + 1) = op (run op b g n) (g n) := rfl

/-- The chain over the first `n` terms is the fold of the operation over `Fin n`, whatever the order. -/
theorem run_eq_fold_univ (op : α → α → α) [hc : Std.Commutative op] [ha : Std.Associative op] (b : α) (g : ℕ → α) :
    ∀ n : ℕ, run op b g n = (Finset.univ : Finset (Fin n)).fold op b (fun m => g m.val)
  | 0 => by
    rw [Finset.univ_eq_empty, Finset.fold_empty]; rfl
  | n + 1 => by
    rw [Fin.univ_castSuccEmb, Finset.fold_cons, Finset.fold_map, run_succ, run_eq_fold_univ op b g n, hc.comm]
    rfl

end FoldChain
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.Body.lean ====
/-
  What the kernel body leaves in its output block, entry by entry.

  The body computes base = p · Wpᵀ + b once, then runs over the 32 "other" slots in order: for slot s it loads the
  slab o[:, s, :] of the staged block, multiplies it with Woᵀ, adds base and takes the running maximum, which starts
  at -∞. So the entry at row r, column d is the left-nested chain
      max (… (max (max (-∞) (t 0)) (t 1)) …) (t 31),     t s = (∑ k, p r k · Wpᵀ k d + b d) + ∑ k, o r s k · Woᵀ k d.
  A chain of maxima taken in order is the order-free fold of `max` over the 32 slots (the chain lemma), which is the
  entry `Cert.Spec.rowsCell` names.
-/
import proofs.«166417_j1984274890946_1_alg».proof.Proof.Gen.KernelIdeal.Frame
import proofs.«166417_j1984274890946_1_alg».proof.Proof.Spec
import proofs.«166417_j1984274890946_1_alg».proof.Proof.LibFoldChain
import proofs.«166417_j1984274890946_1_alg».proof.Proof.LibRowsByCols
import Idealize.ShloMosaic.Lib.ValueLayout

noncomputable section

open scoped BigOperators

namespace Cert.KernelIdeal.Body

open Idealize.ShloMosaic Idealize.ShloMosaic.ValueIdx Cert.KernelIdeal Cert.KernelIdeal.Gen Cert.Spec FoldChain

/-- The body's matrix products contract the left operand's columns with the right operand's rows. -/
theorem dot_plain : Cert.Lib.RowsByCols.Plain dot_S64x1024_S1024x1024_S64x1024_1_0_0_1_n_n := ⟨rfl, rfl, rfl, rfl, rfl, rfl⟩

/-- One slot's product: the loaded slab with its unit axis dropped, narrowed, times the staged weights. -/
def slotDot (l : Vec Ideal S64x1x1024 .f32) (W : FVec Ideal S1024x1024 .bf16) : FVec Ideal S64x1024 .f32 :=
  matmul dot_S64x1024_S1024x1024_S64x1024_1_0_0_1_n_n none
    (truncf .bf16 (shapeCast S64x1024 l Facts₀.shapeCasts_S64x1x1024_S64x1024) Facts₀.bitsLt_bf16_f32) W (constant S64x1024 .f32 0x00000000#32)

/-- A slab with its middle unit axis dropped reads the slab at the same row and column. -/
theorem dropMid_apply (l : Vec Ideal S64x1x1024 .f32) (r : Fin 64) (k : Fin 1024) :
    shapeCast S64x1024 l Facts₀.shapeCasts_S64x1x1024_S64x1024 (ix2 r k) = l (ix3 r (0 : Fin 1) k) :=
  shapeCast_apply l Facts₀.shapeCasts_S64x1x1024_S64x1024 (ix2 r k) (ix3 r (0 : Fin 1) k) (by
    rw [Shape.rowMajor_val_three, Shape.rowMajor_val_two]
    show (r.val * 1 + 0) * 1024 + k.val = r.val * 1024 + k.val
    omega)

/-- At (r, d) a slot's product is the sum over k of the slab's row r times the weights' column d. -/
theorem slotDot_apply (l : Vec Ideal S64x1x1024 .f32) (W : FVec Ideal S1024x1024 .bf16) (r : Fin 64) (d : Fin 1024) :
    slotDot l W (ix2 r d) = ∑ k : Fin 1024, l (ix3 r (0 : Fin 1) k) * W (ix2 k d) := by
  unfold slotDot
  refine (Cert.Lib.RowsByCols.matmul_zero_apply dot_plain none _ W (ix2 r d)).trans ?_
  refine Finset.sum_congr rfl fun k _ => ?_
  exact congrArg (· * W (ix2 k d)) (dropMid_apply l r k)

/-- The person half plus the bias, at (r, d). -/
theorem base_apply (x0 : Vec Ideal S64x1024 .f32) (x2 : Vec Ideal S1024x1024 .bf16) (x4 : Vec Ideal S1x1024 .f32) (r : Fin 64) (d : Fin 1024) :
    k0_pay2 (F := Ideal) x0 x2 x4 (ix2 r d) = (∑ k : Fin 1024, x0 (ix2 r k) * x2 (ix2 k d)) + x4 (ix2 (0 : Fin 1) d) := by
  unfold k0_pay2
  rw [shapeCast_self, shapeCast_self, shapeCast_self]
  refine (addf_apply _ _ _).trans ?_
  rw [broadcastTo_1b_ab_apply]
  exact congrArg (· + x4 (ix2 (0 : Fin 1) d)) (Cert.Lib.RowsByCols.matmul_zero_apply dot_plain none _ x2 (ix2 r d))

/-- One step of the running maximum, as the body spells it. -/
def step (B : FVec Ideal S64x1024 .f32) (W : FVec Ideal S1024x1024 .bf16) (acc : FVec Ideal S64x1024 .f32) (l : Vec Ideal S64x1x1024 .f32) :
    FVec Ideal S64x1024 .f32 :=
  maximumf acc (addf B (slotDot l W))

theorem step_apply (B : FVec Ideal S64x1024 .f32) (W : FVec Ideal S1024x1024 .bf16) (acc : FVec Ideal S64x1024 .f32) (l : Vec Ideal S64x1x1024 .f32)
    (j : S64x1024.Idx) : step B W acc l j = fmax (acc j) (B j + slotDot l W j) := rfl

/-- The first part of the body: the start value -∞ and slots 0, 1, 2. -/
theorem pay4_eq (x0 : Vec Ideal S64x1024 .f32) (x2 : Vec Ideal S1024x1024 .bf16) (x4 : Vec Ideal S1x1024 .f32) (x3 : Vec Ideal S1024x1024 .bf16)
    (l0 l1 l2 : Vec Ideal S64x1x1024 .f32) :
    k0_pay4 (F := Ideal) x0 x2 x4 x3 l0 l1 l2
      = step (k0_pay2 x0 x2 x4) (k0_pay3 x3) (step (k0_pay2 x0 x2 x4) (k0_pay3 x3) (step (k0_pay2 x0 x2 x4) (k0_pay3 x3)
          (broadcast S64x1024 (Scalar.ofBits (F := Ideal) .f32 0xFF800000#32)) l0) l1) l2 := rfl

/-- A middle part: the slot whose slab the previous part already narrowed, then five more. -/
theorem pay6_eq (B : FVec Ideal S64x1024 .f32) (W : FVec Ideal S1024x1024 .bf16) (acc : FVec Ideal S64x1024 .f32) (l3 l4 l5 l6 l7 l8 : Vec Ideal S64x1x1024 .f32) :
    k0_pay6 (F := Ideal) B W acc (k0_pay5 l3) l4 l5 l6 l7 l8
      = step B W (step B W (step B W (step B W (step B W (step B W acc l3) l4) l5) l6) l7) l8 := rfl
theorem pay8_eq (B : FVec Ideal S64x1024 .f32) (W : FVec Ideal S1024x1024 .bf16) (acc : FVec Ideal S64x1024 .f32) (l3 l4 l5 l6 l7 l8 : Vec Ideal S64x1x1024 .f32) :
    k0_pay8 (F := Ideal) B W acc (k0_pay7 l3) l4 l5 l6 l7 l8
      = step B W (step B W (step B W (step B W (step B W (step B W acc l3) l4) l5) l6) l7) l8 := rfl
theorem pay10_eq (B : FVec Ideal S64x1024 .f32) (W : FVec Ideal S1024x1024 .bf16) (acc : FVec Ideal S64x1024 .f32) (l3 l4 l5 l6 l7 l8 : Vec Ideal S64x1x1024 .f32) :
    k0_pay10 (F := Ideal) B W acc (k0_pay9 l3) l4 l5 l6 l7 l8
      = step B W (step B W (step B W (step B W (step B W (step B W acc l3) l4) l5) l6) l7) l8 := rfl
theorem pay12_eq (B : FVec Ideal S64x1024 .f32) (W : FVec Ideal S1024x1024 .bf16) (acc : FVec Ideal S64x1024 .f32) (l3 l4 l5 l6 l7 l8 : Vec Ideal S64x1x1024 .f32) :
    k0_pay12 (F := Ideal) B W acc (k0_pay11 l3) l4 l5 l6 l7 l8
      = step B W (step B W (step B W (step B W (step B W (step B W acc l3) l4) l5) l6) l7) l8 := rfl
/-- The last part: the narrowed slot and four more. -/
theorem pay1_eq (B : FVec Ideal S64x1024 .f32) (W : FVec Ideal S1024x1024 .bf16) (acc : FVec Ideal S64x1024 .f32) (l3 l4 l5 l6 l7 : Vec Ideal S64x1x1024 .f32) :
    k0_pay1 (F := Ideal) B W acc (k0_pay13 l3) l4 l5 l6 l7
      = step B W (step B W (step B W (step B W (step B W acc l3) l4) l5) l6) l7 := rfl

/-! ## The slots' slabs and the chain of maxima -/

theorem hz2 : (![0, 0] : Fin 2 → Nat) = fun _ => 0 := funext fun a => by fin_cases a <;> rfl

/-- Slot `s`'s slab lies inside the staged [64, 32, 1024] block (the slot is read modulo 32, so that the rectangle is
    defined for every natural number; the body uses 0 … 31). -/
theorem slab_inb (s : ℕ) : ∀ a, (![0, s % 32, 0] : Fin 3 → ℕ) a + S64x1x1024.size a ≤ S64x32x1024.size a := fun a => by
  have hs : s % 32 < 32 := Nat.mod_lt _ (by decide)
  match a with
  | ⟨0, _⟩ => show 0 + 64 ≤ 64; omega
  | ⟨1, _⟩ => show s % 32 + 1 ≤ 32; omega
  | ⟨2, _⟩ => show 0 + 1024 ≤ 1024; omega

/-- The rectangle o[:, s, :] of the staged block. -/
abbrev slabRect (s : ℕ) : Rect S64x32x1024 := Rect.unit (s := S64x32x1024) ![0, s % 32, 0] S64x1x1024.size (slab_inb s)

/-- Slot `s`'s slab at (r, 0, k) is the staged block at (r, s, k). -/
theorem ld_slab (x1 : Vec Ideal S64x32x1024 .f32) (s : ℕ) (r : Fin 64) (k : Fin 1024) :
    View.ld x1 (slabRect s) (ix3 r (0 : Fin 1) k) = x1 (ix3 r (⟨s % 32, Nat.mod_lt _ (by decide)⟩ : Fin 32) k) :=
  congrArg x1 (funext fun a => Fin.ext (by
    match a with
    | ⟨0, _⟩ => show 0 + 1 * r.val = r.val; omega
    | ⟨1, _⟩ => show s % 32 + 1 * 0 = s % 32; omega
    | ⟨2, _⟩ => show 0 + 1 * k.val = k.val; omega))

/-- Slot `s`'s candidate at (r, d): base plus the slot's product. -/
def cand (x0 : Vec Ideal S64x1024 .f32) (x1 : Vec Ideal S64x32x1024 .f32) (x2 x3 : Vec Ideal S1024x1024 .bf16) (x4 : Vec Ideal S1x1024 .f32)
    (r : Fin 64) (d : Fin 1024) (s : ℕ) : EReal :=
  k0_pay2 (F := Ideal) x0 x2 x4 (ix2 r d) + slotDot (View.ld x1 (slabRect s)) (k0_pay3 (F := Ideal) x3) (ix2 r d)

/-- The candidate, written out: (person half + bias) + slot half. -/
theorem cand_eq (x0 : Vec Ideal S64x1024 .f32) (x1 : Vec Ideal S64x32x1024 .f32) (x2 x3 : Vec Ideal S1024x1024 .bf16) (x4 : Vec Ideal S1x1024 .f32)
    (r : Fin 64) (d : Fin 1024) (s : Fin 32) :
    cand x0 x1 x2 x3 x4 r d s.val
      = ((∑ k : Fin 1024, x0 (ix2 r k) * x2 (ix2 k d)) + x4 (ix2 (0 : Fin 1) d)) + ∑ k : Fin 1024, x1 (ix3 r s k) * x3 (ix2 k d) := by
  unfold cand
  rw [base_apply]
  refine congrArg (_ + ·) ((slotDot_apply _ _ r d).trans (Finset.sum_congr rfl fun k _ => ?_))
  have hs : (⟨s.val % 32, Nat.mod_lt _ (by decide)⟩ : Fin 32) = s := Fin.ext (Nat.mod_eq_of_lt s.isLt)
  have hW : k0_pay3 (F := Ideal) x3 = x3 := shapeCast_self x3 _
  rw [hW]
  exact congrArg (· * x3 (ix2 k d)) ((ld_slab x1 s.val r k).trans (congrArg (fun q => x1 (ix3 r q k)) hs))

/-- THE BLOCK the body leaves, at (r, d): the specification's entry of the staged blocks. -/
theorem out_apply (x0 : Vec Ideal S64x1024 .f32) (x1 : Vec Ideal S64x32x1024 .f32) (x2 x3 : Vec Ideal S1024x1024 .bf16) (x4 : Vec Ideal S1x1024 .f32)
    (r : Fin 64) (d : Fin 1024) :
    out0_5 (F := Ideal) x0 x1 x2 x3 x4 (ix2 r d) = rowsCell x0 x1 x2 x3 x4 r d := by
  unfold out0_5
  rw [View.canon_unit_zero hz2]
  simp only [View.ld_unit_zero (S := S64x1024) hz2, View.ld_unit_zero (S := S1024x1024) hz2, View.ld_unit_zero (S := S1x1024) hz2]
  rw [pay1_eq, pay12_eq, pay10_eq, pay8_eq, pay6_eq, pay4_eq]
  refine Eq.trans (show _ = run fmax negInf (cand x0 x1 x2 x3 x4 r d) 32 from rfl) ?_
  rw [run_eq_fold_univ]
  unfold rowsCell cell
  exact congrArg (fun f => (Finset.univ : Finset (Fin 32)).fold fmax negInf f) (funext fun s => cand_eq x0 x1 x2 x3 x4 r d s)

end Cert.KernelIdeal.Body

end
-- ==== Proof.KernelValue.lean ====
/-
  The kernel's program, read as a value.

  The grid has 32 points; point t stages rows 64·t … 64·t + 63 of the person array and of the slots' array, the two
  transposed weight halves and the bias row whole, and writes back rows 64·t … 64·t + 63 of the [2048, 1024] output.
  What it writes at (r, d) is the specification's entry of the staged blocks (`Body.out_apply`), and a staged block's
  row r is the array's row 64·t + r, so the write-back is block t of ONE function of the staged arrays (`blockwise`).
  The 32 blocks tile the output's rows, so the output array ends holding that function.
  The staged arrays are host operations of the arguments — two reshapes, the two column halves of W transposed and
  narrowed (the narrowing is the identity on the extended reals), the bias as one row — so, read at an index, the function
  is the specification's `result` of the arguments (`staged_eq_result`). The program then adds two unit axes.
-/
import proofs.«166417_j1984274890946_1_alg».proof.Proof.Gen.KernelIdeal.Frame
import proofs.«166417_j1984274890946_1_alg».proof.Proof.Body
import Idealize.ShloMosaic.Lib.Pipeline.Value
import Idealize.ShloMosaic.Lib.ValueLayout
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (ρ : Dev nD → PrngReg)

/-! ## The staged arrays, as the region finds them -/

abbrev persons (c : Dev nD) : Vec Ideal S2048x1024 .f32 := V m c main_v0
abbrev others (c : Dev nD) : Vec Ideal S2048x32x1024 .f32 := V m c main_v1
abbrev wpT (c : Dev nD) : Vec Ideal S1024x1024 .bf16 := V m c main_v5
abbrev woT (c : Dev nD) : Vec Ideal S1024x1024 .bf16 := V m c main_v7
abbrev biasRow (c : Dev nD) : Vec Ideal S1x1024 .f32 := V m c main_v8

/-- The output array after the run, as one function of the staged arrays. -/
def staged (c : Dev nD) : Vec Ideal S2048x1024 .f32 := fun j =>
  rowsCell (persons m c) (others m c) (wpT m c) (woT m c) (biasRow m c) ⟨(j 0).val, idx2_lt0 j⟩ ⟨(j 1).val, idx2_lt1 j⟩

theorem staged_ix2 (c : Dev nD) (n : Fin 2048) (d : Fin 1024) :
    staged m c (ix2 n d) = rowsCell (persons m c) (others m c) (wpT m c) (woT m c) (biasRow m c) n d := rfl

/-! ## A point's blocks are rows of the staged arrays -/

/-- The printed index maps, decided over the grid: the row-blocked windows are at block row t, everything else at 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem idx_onto : ∀ q : Fin 32, ∃ t : Fin cfg0.N, win0_5.index t (0 : Fin 2) = q.val :=
  (by decide +kernel : ∀ q : Fin 32, ∃ t : Fin grid0.N, win0_5.index t (0 : Fin 2) = q.val)

theorem t_lt (t : Fin cfg0.N) : t.val < 32 := Nat.lt_of_lt_of_eq t.isLt N_0

/-- The row of the arrays that row r of point t's blocks is. -/
abbrev rowOf (t : Fin cfg0.N) (r : Fin 64) : Fin 2048 := ⟨t.val * 64 + r.val, by have := t_lt t; have := r.isLt; omega⟩

theorem person_blk (c : Dev nD) (t : Fin cfg0.N) (r : Fin 64) (k : Fin 1024) :
    (iblk m c 0 t : Vec Ideal S64x1024 .f32) (ix2 r k) = persons m c (ix2 (rowOf t r) k) := by
  obtain ⟨e00, e01, -⟩ := idx_facts t
  show V m c main_v0 (((cfg0.win 0).blk t).view.emb (ix2 r k)) = V m c main_v0 (ix2 (rowOf t r) k)
  refine congrArg (V m c main_v0) (funext fun a => Fin.ext ?_)
  match a with
  | ⟨0, _⟩ => show win0_0.index t (0 : Fin 2) * 64 + 1 * r.val = t.val * 64 + r.val; rw [e00]; omega
  | ⟨1, _⟩ => show win0_0.index t (1 : Fin 2) * 1024 + 1 * k.val = k.val; rw [e01]; omega

theorem other_blk (c : Dev nD) (t : Fin cfg0.N) (r : Fin 64) (s : Fin 32) (k : Fin 1024) :
    (iblk m c 1 t : Vec Ideal S64x32x1024 .f32) (ix3 r s k) = others m c (ix3 (rowOf t r) s k) := by
  obtain ⟨-, -, e10, e11, e12, -⟩ := idx_facts t
  show V m c main_v1 (((cfg0.win 1).blk t).view.emb (ix3 r s k)) = V m c main_v1 (ix3 (rowOf t r) s k)
  refine congrArg (V m c main_v1) (funext fun a => Fin.ext ?_)
  match a with
  | ⟨0, _⟩ => show win0_1.index t (0 : Fin 3) * 64 + 1 * r.val = t.val * 64 + r.val; rw [e10]; omega
  | ⟨1, _⟩ => show win0_1.index t (1 : Fin 3) * 32 + 1 * s.val = s.val; rw [e11]; omega
  | ⟨2, _⟩ => show win0_1.index t (2 : Fin 3) * 1024 + 1 * k.val = k.val; rw [e12]; omega

theorem wpT_blk (c : Dev nD) (t : Fin cfg0.N) : (iblk m c 2 t : Vec Ideal S1024x1024 .bf16) = wpT m c := by
  obtain ⟨-, -, -, -, -, e20, e21, -⟩ := idx_facts t
  funext y
  show V m c main_v5 (((cfg0.win 2).blk t).view.emb y) = V m c main_v5 y
  refine congrArg (V m c main_v5) (funext fun a => Fin.ext ?_)
  match a with
  | ⟨0, _⟩ => show win0_2.index t (0 : Fin 2) * 1024 + 1 * (y 0).val = (y 0).val; rw [e20]; omega
  | ⟨1, _⟩ => show win0_2.index t (1 : Fin 2) * 1024 + 1 * (y 1).val = (y 1).val; rw [e21]; omega

theorem woT_blk (c : Dev nD) (t : Fin cfg0.N) : (iblk m c 3 t : Vec Ideal S1024x1024 .bf16) = woT m c := by
  obtain ⟨-, -, -, -, -, -, -, e30, e31, -⟩ := idx_facts t
  funext y
  show V m c main_v7 (((cfg0.win 3).blk t).view.emb y) = V m c main_v7 y
  refine congrArg (V m c main_v7) (funext fun a => Fin.ext ?_)
  match a with
  | ⟨0, _⟩ => show win0_3.index t (0 : Fin 2) * 1024 + 1 * (y 0).val = (y 0).val; rw [e30]; omega
  | ⟨1, _⟩ => show win0_3.index t (1 : Fin 2) * 1024 + 1 * (y 1).val = (y 1).val; rw [e31]; omega

theorem bias_blk (c : Dev nD) (t : Fin cfg0.N) : (iblk m c 4 t : Vec Ideal S1x1024 .f32) = biasRow m c := by
  obtain ⟨-, -, -, -, -, -, -, -, -, e40, e41, -⟩ := idx_facts t
  funext y
  show V m c main_v8 (((cfg0.win 4).blk t).view.emb y) = V m c main_v8 y
  refine congrArg (V m c main_v8) (funext fun a => Fin.ext ?_)
  match a with
  | ⟨0, _⟩ => show win0_4.index t (0 : Fin 2) * 1 + 1 * (y 0).val = (y 0).val; rw [e40]; omega
  | ⟨1, _⟩ => show win0_4.index t (1 : Fin 2) * 1024 + 1 * (y 1).val = (y 1).val; rw [e41]; omega

/-- What the body leaves at point t, at (r, d): the staged function at row 64·t + r. -/
theorem blockwise (c : Dev nD) (t : Fin cfg0.N) (r : Fin 64) (d : Fin 1024) :
    out0_5 (F := Ideal) (iblk m c 0 t) (iblk m c 1 t) (iblk m c 2 t) (iblk m c 3 t) (iblk m c 4 t) (ix2 r d)
      = staged m c (ix2 (rowOf t r) d) := by
  rw [Body.out_apply, staged_ix2, wpT_blk, woT_blk, bias_blk]
  unfold rowsCell
  exact cell_congr (fun k => person_blk m c t r k) (fun _ => rfl) rfl (fun s k => other_blk m c t r s k) (fun _ => rfl)

/-! ## The output array after the run -/

/-- WHAT POINT t WRITES BACK is block t of the staged function. -/
theorem flushed_eq (c : Dev nD) (t : Fin cfg0.N) :
    (dats m 0 c).flushed 5 t = ((cfg0.win 5).blk t).view.read (Elt Ideal) (staged m c) := by
  show (cfg0.win 5).cut (grid0.coords t) ((dats m 0 c).after 5 t) = _
  rw [after0_5]
  funext y
  obtain ⟨r, d, rfl⟩ : ∃ (r : Fin 64) (d : Fin 1024), y = ix2 r d := ⟨y 0, y 1, eq_ix2 y⟩
  obtain ⟨-, -, -, -, -, -, -, -, -, -, -, e50, e51⟩ := idx_facts t
  refine (blockwise m c t r d).trans ?_
  show staged m c (ix2 (rowOf t r) d) = staged m c (((cfg0.win 5).blk t).view.emb (ix2 r d))
  refine congrArg (staged m c) (funext fun a => Fin.ext ?_)
  match a with
  | ⟨0, _⟩ => show t.val * 64 + r.val = win0_5.index t (0 : Fin 2) * 64 + 1 * r.val; rw [e50]; omega
  | ⟨1, _⟩ => show d.val = win0_5.index t (1 : Fin 2) * 1024 + 1 * d.val; rw [e51]; omega

/-- An index of the output is in point t's block iff its row is among the block's 64 rows. -/
theorem mem_blk (t : Fin cfg0.N) (i : S2048x1024.Idx) :
    i ∈ ((cfg0.win 5).blk t).view.set ↔ ∀ a : Fin 2, win0_5.index t a * S64x1024.size a ≤ (i a).val ∧ (i a).val < win0_5.index t a * S64x1024.size a + S64x1024.size a := by
  show i ∈ ((View.whole main_v9).slice (win0_5.rect t)).set ↔ _
  rw [View.set_slice_whole, Rect.mem_set_unit]
  exact Iff.rfl

/-- The blocks tile the output: row n is in the block of point n / 64. -/
theorem covered (i : S2048x1024.Idx) : ∃ t : Fin cfg0.N, (cfg0.win 5).flush t = true ∧ i ∈ ((cfg0.win 5).blk t).view.set := by
  have hi0 : (i 0).val < 2048 := (i 0).isLt
  have hi1 : (i 1).val < 1024 := (i 1).isLt
  obtain ⟨t, ht⟩ := idx_onto ⟨(i 0).val / 64, by omega⟩
  obtain ⟨-, -, -, -, -, -, -, -, -, -, -, -, e51⟩ := idx_facts t
  refine ⟨t, flush0_5 t, ?_⟩
  rw [mem_blk]
  intro a
  match a with
  | ⟨0, _⟩ =>
    show win0_5.index t (0 : Fin 2) * 64 ≤ (i 0).val ∧ (i 0).val < win0_5.index t (0 : Fin 2) * 64 + 64
    rw [ht]
    show (i 0).val / 64 * 64 ≤ (i 0).val ∧ (i 0).val < (i 0).val / 64 * 64 + 64
    omega
  | ⟨1, _⟩ =>
    show win0_5.index t (1 : Fin 2) * 1024 ≤ (i 1).val ∧ (i 1).val < win0_5.index t (1 : Fin 2) * 1024 + 1024
    rw [e51]
    omega

/-- THE OUTPUT ARRAY after the run is the staged function. -/
theorem final (c : Dev nD) : (dats m 0 c).arrAt 5 cfg0.N = staged m c :=
  (dats m 0 c).arrAt_eq_of_cover 5 (staged m c) (fun t _ => flushed_eq m c t) (covered)

/-! ## The staged arrays from the arguments -/

abbrev pfArg (c : Dev nD) : Vec Ideal S2048x1024x1x1 .f32 := m ((c.tc : Thread nD τ).loc main_arg0)
abbrev ofArg (c : Dev nD) : Vec Ideal S2048x32x1024x1x1 .f32 := m ((c.tc : Thread nD τ).loc main_arg1)
abbrev wArg (c : Dev nD) : Vec Ideal S1024x2048 .f32 := m ((c.tc : Thread nD τ).loc main_arg5)
abbrev bArg (c : Dev nD) : Vec Ideal S1024 .f32 := m ((c.tc : Thread nD τ).loc main_arg6)

theorem persons_eq (c : Dev nD) :
    persons m c = shapeCast S2048x1024 (pfArg m c) Facts₀.shapeCasts_S2048x1024x1x1_S2048x1024 := by
  show StableHlo.after hostOps0 (fun b => m (c, b)) (Proc.devRef .tc main_v0) = _
  after_results <;> rfl

theorem others_eq (c : Dev nD) :
    others m c = shapeCast S2048x32x1024 (ofArg m c) Facts₀.shapeCasts_S2048x32x1024x1x1_S2048x32x1024 := by
  show StableHlo.after hostOps0 (fun b => m (c, b)) (Proc.devRef .tc main_v1) = _
  after_results <;> rfl

theorem wpT_eq (c : Dev nD) :
    wpT m c = truncf (F := Ideal) .bf16 (transpose S1024x1024 [1, 0] (extractStridedSlice S1024x1024 ![0, 0] (wArg m c)
      Facts₀.slices_S1024x2048_S1024x1024_0_0) Facts₀.transposes_S1024x1024_S1024x1024_1_0) Facts₀.bitsLt_bf16_f32 := by
  show StableHlo.after hostOps0 (fun b => m (c, b)) (Proc.devRef .tc main_v5) = _
  after_results <;> rfl

theorem woT_eq (c : Dev nD) :
    woT m c = truncf (F := Ideal) .bf16 (transpose S1024x1024 [1, 0] (extractStridedSlice S1024x1024 ![0, 1024] (wArg m c)
      Facts₀.slices_S1024x2048_S1024x1024_0_1024) Facts₀.transposes_S1024x1024_S1024x1024_1_0) Facts₀.bitsLt_bf16_f32 := by
  show StableHlo.after hostOps0 (fun b => m (c, b)) (Proc.devRef .tc main_v7) = _
  after_results <;> rfl

theorem biasRow_eq (c : Dev nD) :
    biasRow m c = shapeCast S1x1024 (bArg m c) Facts₀.shapeCasts_S1024_S1x1024 := by
  show StableHlo.after hostOps0 (fun b => m (c, b)) (Proc.devRef .tc main_v8) = _
  after_results <;> rfl

theorem persons_apply (c : Dev nD) (n : Fin 2048) (k : Fin 1024) :
    persons m c (ix2 n k) = pfArg m c (ix4 n k (0 : Fin 1) (0 : Fin 1)) := by
  rw [persons_eq]
  exact shapeCast_apply _ _ (ix2 n k) (ix4 n k (0 : Fin 1) (0 : Fin 1)) (by
    rw [Shape.rowMajor_val_four, Shape.rowMajor_val_two]
    show ((n.val * 1024 + k.val) * 1 + 0) * 1 + 0 = n.val * 1024 + k.val
    omega)

theorem others_apply (c : Dev nD) (n : Fin 2048) (s : Fin 32) (k : Fin 1024) :
    others m c (ix3 n s k) = ofArg m c (ix5 n s k (0 : Fin 1) (0 : Fin 1)) := by
  rw [others_eq]
  exact shapeCast_apply _ _ (ix3 n s k) (ix5 n s k (0 : Fin 1) (0 : Fin 1)) (by
    rw [Shape.rowMajor_val_five, Shape.rowMajor_val_three]
    show ((((n.val * 32 + s.val) * 1024 + k.val) * 1 + 0) * 1 + 0) = (n.val * 32 + s.val) * 1024 + k.val
    omega)

theorem wpT_apply (c : Dev nD) (k d : Fin 1024) :
    wpT m c (ix2 k d) = wArg m c (ix2 d (⟨k.val, by omega⟩ : Fin 2048)) := by
  rw [wpT_eq]
  have narrow : ∀ (x : FVec Ideal S1024x1024 .f32) (j : S1024x1024.Idx), truncf (F := Ideal) .bf16 x Facts₀.bitsLt_bf16_f32 j = x j := fun _ _ => rfl
  refine (narrow _ _).trans ((transpose_ix2_apply _ _ k d).trans ?_)
  exact extractStridedSlice_apply ![0, 0] _ _ (ix2 d k) (ix2 d (⟨k.val, by omega⟩ : Fin 2048)) (fun a => match a with
    | ⟨0, _⟩ => by show d.val = 0 + d.val; omega
    | ⟨1, _⟩ => by show k.val = 0 + k.val; omega)

theorem woT_apply (c : Dev nD) (k d : Fin 1024) :
    woT m c (ix2 k d) = wArg m c (ix2 d (⟨1024 + k.val, by omega⟩ : Fin 2048)) := by
  rw [woT_eq]
  have narrow : ∀ (x : FVec Ideal S1024x1024 .f32) (j : S1024x1024.Idx), truncf (F := Ideal) .bf16 x Facts₀.bitsLt_bf16_f32 j = x j := fun _ _ => rfl
  refine (narrow _ _).trans ((transpose_ix2_apply _ _ k d).trans ?_)
  exact extractStridedSlice_apply ![0, 1024] _ _ (ix2 d k) (ix2 d (⟨1024 + k.val, by omega⟩ : Fin 2048)) (fun a => match a with
    | ⟨0, _⟩ => by show d.val = 0 + d.val; omega
    | ⟨1, _⟩ => by show 1024 + k.val = 1024 + k.val; rfl)

theorem bias_apply (c : Dev nD) (d : Fin 1024) : biasRow m c (ix2 (0 : Fin 1) d) = bArg m c (ix1 d) := by
  rw [biasRow_eq]
  exact shapeCast_a_1a_apply _ _ (0 : Fin 1) d

/-- The staged function is the specification's result of the arguments. -/
theorem staged_eq_result (c : Dev nD) : staged m c = result (pfArg m c) (ofArg m c) (wArg m c) (bArg m c) := by
  funext j
  obtain ⟨n, d, rfl⟩ : ∃ (n : Fin 2048) (d : Fin 1024), j = ix2 n d := ⟨j 0, j 1, eq_ix2 j⟩
  rw [staged_ix2, result_ix2]
  unfold rowsCell resultAt
  exact cell_congr (fun k => persons_apply m c n k) (fun k => wpT_apply m c k d) (bias_apply m c d)
    (fun s k => others_apply m c n s k) (fun k => woT_apply m c k d)

/-! ## The program's result -/

/-- After the region, the last host operation adds the two unit axes to the output array. -/
theorem tail_eq (c : Dev nD) :
    Pipeline.afterTail₀ cfgs (dats m) 0 (V0 m) [hostOps1] c main_v10
      = withUnitAxes (result (pfArg m c) (ofArg m c) (wArg m c) (bArg m c)) := by
  unfold Pipeline.afterTail₀
  show StableHlo.after hostOps1 _ (Proc.devRef .tc main_v10) = _
  after_results
  exact congrArg withUnitAxes
    (((Pipeline.withArrays_arr spec0 launch0.win.arr_inj c _ _ 5).trans (final m c)).trans (staged_eq_result m c))

/-- THE KERNEL'S PROGRAM: every weakly fair execution ends with the result at the specification's value of the
    arguments (two unit axes added), and the arguments as they were. -/
theorem run : θ_run defs (onTc (τ := τ) (main (F := Ideal))) ⟨m, fun _ => 0, ρ⟩ fun r => ∀ c : Dev nD,
      r.2.mem ((c.tc : Thread nD τ).loc main_v10) = withUnitAxes (result (pfArg m c) (ofArg m c) (wArg m c) (bArg m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KValue

end
-- ==== Proof.RefValue.lean ====
/-
  The reference, entry by entry.

  The reference reshapes the two feature arrays, takes the two halves of W's columns, contracts each feature row with
  the matching half of W's row d, adds the person half (broadcast over the slots) to the slots' half, adds the bias, and
  reduces with `max` over the slot axis from -∞. A reduction over one axis with a commutative, associative body is the
  fold over that axis's coordinates; each term read at its index is  (pk n d + ok n s d) + b d,  which differs from the
  specification's  (pk n d + b d) + ok n s d  only in how the three summands are associated (`Cert.Spec.cell_assoc`).
-/
import proofs.«166417_j1984274890946_1_alg».proof.Proof.Gen.ReferenceIdeal.Read
import proofs.«166417_j1984274890946_1_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read Cert.Spec

/-- The slot axis is the middle one of [2048, 32, 1024]. -/
theorem reduces_mid : S2048x32x1024.Reduces [1] S2048x1024 := by decide

/-- The index (n, d) with slot `s` put back on the reduced axis is (n, s, d). -/
theorem lift_mid (n : Fin 2048) (d : Fin 1024) (s : Fin 32) : reduces_mid.lift (ix2 n d) s = ix3 n s d :=
  funext fun c => Fin.ext (by
    match c with
    | ⟨0, _⟩ => rfl
    | ⟨1, _⟩ => rfl
    | ⟨2, _⟩ => rfl)

/-- One term of the reduction: the person half plus slot `s`'s half, plus the bias. -/
theorem term_apply (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal))
    (n : Fin 2048) (s : Fin 32) (d : Fin 1024) :
    val_main_v11 (F := Ideal) x0 x1 x5 x6 (ix3 n s d)
      = ((∑ k : Fin 1024, x0 (ix4 n k (0 : Fin 1) (0 : Fin 1)) * x5 (ix2 d (⟨k.val, by omega⟩ : Fin 2048)))
          + ∑ k : Fin 1024, x1 (ix5 n s k (0 : Fin 1) (0 : Fin 1)) * x5 (ix2 d (⟨1024 + k.val, by omega⟩ : Fin 2048)))
        + x6 (ix1 d) := by
  rw [val_main_v11_apply, val_main_v8_apply, val_main_v10_apply, val_main_v9_apply, val_main_v7_apply, val_main_v6_apply,
    val_main_v4_apply, val_main_v5_apply]
  have hn : n.val < 2048 := n.isLt
  have hd : d.val < 1024 := d.isLt
  refine congrArg₂ (· + ·) (congrArg₂ (· + ·) (Finset.sum_congr rfl fun k _ => ?_) (Finset.sum_congr rfl fun k _ => ?_)) ?_
  · rw [val_main_v0_apply, val_main_v2_apply]
    have hk : k.val < 1024 := k.isLt
    refine congrArg₂ (· * ·) (congrArg x0 (funext fun a => Fin.ext ?_)) (congrArg x5 (funext fun a => Fin.ext ?_))
    · match a with
      | ⟨0, _⟩ => show (n.val * 1024 + k.val) / 1024 = n.val; omega
      | ⟨1, _⟩ => show (n.val * 1024 + k.val) / 1 % 1024 = k.val; omega
      | ⟨2, _⟩ => rfl
      | ⟨3, _⟩ => rfl
    · match a with
      | ⟨0, _⟩ => rfl
      | ⟨1, _⟩ => rfl
  · rw [val_main_v1_apply, val_main_v3_apply]
    have hk : k.val < 1024 := k.isLt
    have hs : s.val < 32 := s.isLt
    refine congrArg₂ (· * ·) (congrArg x1 (funext fun a => Fin.ext ?_)) (congrArg x5 (funext fun a => Fin.ext ?_))
    · match a with
      | ⟨0, _⟩ => show ((n.val * 32 + s.val) * 1024 + k.val) / 32768 = n.val; omega
      | ⟨1, _⟩ => show ((n.val * 32 + s.val) * 1024 + k.val) / 1024 % 32 = s.val; omega
      | ⟨2, _⟩ => show ((n.val * 32 + s.val) * 1024 + k.val) / 1 % 1024 = k.val; omega
      | ⟨3, _⟩ => rfl
      | ⟨4, _⟩ => rfl
    · match a with
      | ⟨0, _⟩ => rfl
      | ⟨1, _⟩ => rfl
  · exact congrArg x6 (funext fun a => Fin.ext (by
      match a with
      | ⟨0, _⟩ => rfl))

/-- The reduced array at (n, d) is the specification's entry. -/
theorem reduced_apply (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal))
    (n : Fin 2048) (d : Fin 1024) :
    val_main_v12 (F := Ideal) x0 x1 x5 x6 (ix2 n d) = resultAt x0 x1 x5 x6 n d := by
  unfold val_main_v12
  rw [Host.reduce_eq_fold_single FloatOps.maximumf _ _ reducesTo_S2048x32x1024_S2048x1024_d1 reduces_mid h_S_ (ix2 n d)]
  unfold resultAt
  rw [← cell_assoc]
  show (Finset.univ : Finset (Fin 32)).fold fmax negInf (fun s => val_main_v11 (F := Ideal) x0 x1 x5 x6 (reduces_mid.lift (ix2 n d) s)) = _
  exact congrArg (fun f => (Finset.univ : Finset (Fin 32)).fold fmax negInf f) (funext fun s =>
    (congrArg (val_main_v11 (F := Ideal) x0 x1 x5 x6) (lift_mid n d s)).trans (term_apply x0 x1 x5 x6 n s d))

/-- The reduced array is the specification's result. -/
theorem reduced_eq (x0 : (⟨S2048x1024x1x1, .f32⟩ : BufTy).Contents (Elt Ideal)) (x1 : (⟨S2048x32x1024x1x1, .f32⟩ : BufTy).Contents (Elt Ideal))
    (x5 : (⟨S1024x2048, .f32⟩ : BufTy).Contents (Elt Ideal)) (x6 : (⟨S1024, .f32⟩ : BufTy).Contents (Elt Ideal)) :
    val_main_v12 (F := Ideal) x0 x1 x5 x6 = result x0 x1 x5 x6 := by
  funext j
  obtain ⟨n, d, rfl⟩ : ∃ (n : Fin 2048) (d : Fin 1024), j = ix2 n d := ⟨j 0, j 1, eq_ix2 j⟩
  rw [reduced_apply, result_ix2]

end Cert.ReferenceIdeal.RefValue

end
-- ==== Proof.lean ====
/-
  The certificate of a max-pooled linear layer: for every person row n and output feature d,
      out n d = max over the 32 slots s of ( ∑ k person n k · W d k  +  b d  +  ∑ k other n s k · W d (1024 + k) ),
  the maximum taken from -∞.

  The kernel walks the person rows in 32 blocks of 64; in each block it forms the person half plus the bias once and
  then takes the running maximum over the slots in order, each slot contributing one matrix product with the second
  half of W. The reference forms both halves for all slots at once, adds them, adds the bias and reduces with max over
  the slot axis. On the extended reals the narrowing to bf16 is the identity, a matrix product is the finite sum of
  products, a running maximum taken in order is the order-free maximum, and  (x + y) + z = (x + z) + y  holds for all
  extended reals; so both programs end at the same function of the arguments (`Cert.Spec.result`), with two unit axes
  added at the end by the same operation. No finiteness of the inputs is needed.

  The three frames are the generated ones (the reference's is its generated run with the result dropped); the ideal pass
  rewrote nothing, so the idealization claim is trivial.
-/
import proofs.«166417_j1984274890946_1_alg».proof.Defs
import proofs.«166417_j1984274890946_1_alg».proof.Proof.Gen.Kernel
import proofs.«166417_j1984274890946_1_alg».proof.Proof.Gen.Kernel.Skeleton
import proofs.«166417_j1984274890946_1_alg».proof.Proof.Gen.Kernel.Launch
import proofs.«166417_j1984274890946_1_alg».proof.Proof.Gen.Kernel.Points
import proofs.«166417_j1984274890946_1_alg».proof.Proof.Gen.Kernel.Frame
import proofs.«166417_j1984274890946_1_alg».proof.Proof.Gen.KernelIdeal
import proofs.«166417_j1984274890946_1_alg».proof.Proof.Gen.KernelIdeal.Skeleton
import proofs.«166417_j1984274890946_1_alg».proof.Proof.Gen.KernelIdeal.Launch
import proofs.«166417_j1984274890946_1_alg».proof.Proof.Gen.KernelIdeal.Points
import proofs.«166417_j1984274890946_1_alg».proof.Proof.Gen.KernelIdeal.Frame
import proofs.«166417_j1984274890946_1_alg».proof.Proof.Gen.ReferenceIdeal
import proofs.«166417_j1984274890946_1_alg».proof.Proof.Gen.Pre_finite_inputs
import proofs.«166417_j1984274890946_1_alg».proof.Proof.Gen.ReferenceIdeal.Run
import proofs.«166417_j1984274890946_1_alg».proof.Proof.Gen.ReferenceIdeal.Read
import proofs.«166417_j1984274890946_1_alg».proof.Proof.KernelValue
import proofs.«166417_j1984274890946_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the specification's result of the arguments, which agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq]
  unfold Cert.ReferenceIdeal.Read.val_main_v13
  rw [Cert.ReferenceIdeal.RefValue.reduced_eq, (hagree c).1, (hagree c).2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
